-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x512 : Shape := ⟨3, ![64, 64, 512]⟩
abbrev S64x512x2048 : Shape := ⟨3, ![64, 512, 2048]⟩
abbrev S64x1x2048 : Shape := ⟨3, ![64, 1, 2048]⟩
abbrev S_ : Shape := ⟨0, ![]⟩

class Facts : Prop where
  bcast_S_S64x64x512 : S_.BroadcastsInDim S64x64x512 (![] : Fin 0 → Fin S64x64x512.rank)
  reducesTo_S64x64x512_S_d0_1_2 : S64x64x512.ReducesTo [0, 1, 2] S_
  h_S_ : 0 < S_.numel
  bcast_S_S64x512x2048 : S_.BroadcastsInDim S64x512x2048 (![] : Fin 0 → Fin S64x512x2048.rank)
  reducesTo_S64x512x2048_S_d0_1_2 : S64x512x2048.ReducesTo [0, 1, 2] S_
  bcast_S_S64x1x2048 : S_.BroadcastsInDim S64x1x2048 (![] : Fin 0 → Fin S64x1x2048.rank)
  reducesTo_S64x1x2048_S_d0_1_2 : S64x1x2048.ReducesTo [0, 1, 2] S_

variable [Facts]

def fn_part1 {F : FTy → Type} [FloatOps F] (main_arg4 : FVec F S64x512x2048 .f32) (main_arg5 : FVec F S64x1x2048 .f32) (main_v13 : IVec S_ 1) (main_v16 : IVec S64x512x2048 1) : IVec S_ 1 :=
  let main_c_5 : IVec S_ 1 := constantI S_ 1 1#1
  let main_v17 : IVec S_ 1 := (fun x v => Host.reduce IntOp.andi x v reducesTo_S64x512x2048_S_d0_1_2 h_S_) main_v16 main_c_5
  let main_v18 : IVec S_ 1 := andi main_v13 main_v17
  let main_v19 : FVec F S64x512x2048 .f32 := Host.absf main_arg4
  let main_cst_6 : FVec F S_ .f32 := constant S_ .f32 0x7F800000#32
  let main_v20 : FVec F S64x512x2048 .f32 := broadcastInDim S64x512x2048 ![] bcast_S_S64x512x2048 main_cst_6
  let main_v21 : IVec S64x512x2048 1 := cmpf .olt main_v19 main_v20
  let main_c_7 : IVec S_ 1 := constantI S_ 1 1#1
  let main_v22 : IVec S_ 1 := (fun x v => Host.reduce IntOp.andi x v reducesTo_S64x512x2048_S_d0_1_2 h_S_) main_v21 main_c_7
  let main_v23 : IVec S_ 1 := andi main_v18 main_v22
  let main_v24 : FVec F S64x1x2048 .f32 := Host.absf main_arg5
  let main_cst_8 : FVec F S_ .f32 := constant S_ .f32 0x7F800000#32
  let main_v25 : FVec F S64x1x2048 .f32 := broadcastInDim S64x1x2048 ![] bcast_S_S64x1x2048 main_cst_8
  let main_v26 : IVec S64x1x2048 1 := cmpf .olt main_v24 main_v25
  let main_c_9 : IVec S_ 1 := constantI S_ 1 1#1
  let main_v27 : IVec S_ 1 := (fun x v => Host.reduce IntOp.andi x v reducesTo_S64x1x2048_S_d0_1_2 h_S_) main_v26 main_c_9
  let main_v28 : IVec S_ 1 := andi main_v23 main_v27
  main_v28

def fn {F : FTy → Type} [FloatOps F] (main_arg0 : FVec F S64x64x512 .f32) (main_arg1 : FVec F S64x64x512 .f32) (main_arg2 : FVec F S64x64x512 .f32) (main_arg3 : FVec F S64x512x2048 .f32) (main_arg4 : FVec F S64x512x2048 .f32) (main_arg5 : FVec F S64x1x2048 .f32) : IVec S_ 1 :=
  let main_v0 : FVec F S64x64x512 .f32 := Host.absf main_arg0
  let main_cst : FVec F S_ .f32 := constant S_ .f32 0x7F800000#32
  let main_v1 : FVec F S64x64x512 .f32 := broadcastInDim S64x64x512 ![] bcast_S_S64x64x512 main_cst
  let main_v2 : IVec S64x64x512 1 := cmpf .olt main_v0 main_v1
  let main_c : IVec S_ 1 := constantI S_ 1 1#1
  let main_v3 : IVec S_ 1 := (fun x v => Host.reduce IntOp.andi x v reducesTo_S64x64x512_S_d0_1_2 h_S_) main_v2 main_c
  let main_v4 : FVec F S64x64x512 .f32 := Host.absf main_arg1
  let main_cst_0 : FVec F S_ .f32 := constant S_ .f32 0x7F800000#32
  let main_v5 : FVec F S64x64x512 .f32 := broadcastInDim S64x64x512 ![] bcast_S_S64x64x512 main_cst_0
  let main_v6 : IVec S64x64x512 1 := cmpf .olt main_v4 main_v5
  let main_c_1 : IVec S_ 1 := constantI S_ 1 1#1
  let main_v7 : IVec S_ 1 := (fun x v => Host.reduce IntOp.andi x v reducesTo_S64x64x512_S_d0_1_2 h_S_) main_v6 main_c_1
  let main_v8 : IVec S_ 1 := andi main_v3 main_v7
  let main_v9 : FVec F S64x64x512 .f32 := Host.absf main_arg2
  let main_cst_2 : FVec F S_ .f32 := constant S_ .f32 0x7F800000#32
  let main_v10 : FVec F S64x64x512 .f32 := broadcastInDim S64x64x512 ![] bcast_S_S64x64x512 main_cst_2
  let main_v11 : IVec S64x64x512 1 := cmpf .olt main_v9 main_v10
  let main_c_3 : IVec S_ 1 := constantI S_ 1 1#1
  let main_v12 : IVec S_ 1 := (fun x v => Host.reduce IntOp.andi x v reducesTo_S64x64x512_S_d0_1_2 h_S_) main_v11 main_c_3
  let main_v13 : IVec S_ 1 := andi main_v8 main_v12
  let main_v14 : FVec F S64x512x2048 .f32 := Host.absf main_arg3
  let main_cst_4 : FVec F S_ .f32 := constant S_ .f32 0x7F800000#32
  let main_v15 : FVec F S64x512x2048 .f32 := broadcastInDim S64x512x2048 ![] bcast_S_S64x512x2048 main_cst_4
  let main_v16 : IVec S64x512x2048 1 := cmpf .olt main_v14 main_v15
  fn_part1 (F := F) main_arg4 main_arg5 main_v13 main_v16
-- ==== Kernel.lean ====
abbrev S64x64x512 : Shape := ⟨3, ![64, 64, 512]⟩
abbrev S64x512x2048 : Shape := ⟨3, ![64, 512, 2048]⟩
abbrev S64x1x2048 : Shape := ⟨3, ![64, 1, 2048]⟩
abbrev S1x64x512 : Shape := ⟨3, ![1, 64, 512]⟩
abbrev S1x512x2048 : Shape := ⟨3, ![1, 512, 2048]⟩
abbrev S1x1x2048 : Shape := ⟨3, ![1, 1, 2048]⟩
abbrev S64x512 : Shape := ⟨2, ![64, 512]⟩
abbrev S512x2048 : Shape := ⟨2, ![512, 2048]⟩
abbrev S1x2048 : Shape := ⟨2, ![1, 2048]⟩
abbrev S64x2048 : Shape := ⟨2, ![64, 2048]⟩

abbrev nBuf : Space → Nat
  | .hbm => 10
  | .vmem => 16
  | .smem => 0
  | _ => 0

abbrev bufTy : (tb : Table) → Fin (tcTables nBuf tb) → BufTy
  | .hbm, ⟨0, _⟩ => ⟨S64x64x512, .f32⟩
  | .hbm, ⟨1, _⟩ => ⟨S64x64x512, .f32⟩
  | .hbm, ⟨2, _⟩ => ⟨S64x64x512, .f32⟩
  | .hbm, ⟨3, _⟩ => ⟨S64x512x2048, .f32⟩
  | .hbm, ⟨4, _⟩ => ⟨S64x512x2048, .f32⟩
  | .hbm, ⟨5, _⟩ => ⟨S64x1x2048, .f32⟩
  | .hbm, ⟨6, _⟩ => ⟨S64x512x2048, .bf16⟩
  | .hbm, ⟨7, _⟩ => ⟨S64x512x2048, .bf16⟩
  | .hbm, ⟨8, _⟩ => ⟨S64x64x512, .f32⟩
  | .hbm, ⟨9, _⟩ => ⟨S64x64x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | _, _ => ⟨S64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S64x2048 : S1x2048.Broadcasts S64x2048
  slices_S64x2048_o0_0_S64x512 : S64x2048.Slices ![0, 0] S64x512
  slices_S64x2048_o0_512_S64x512 : S64x2048.Slices ![0, 512] S64x512
  slices_S64x2048_o0_1024_S64x512 : S64x2048.Slices ![0, 1024] S64x512
  slices_S64x2048_o0_1536_S64x512 : S64x2048.Slices ![0, 1536] S64x512
  shapeCasts_S64x512_S1x64x512 : S64x512.ShapeCasts S1x64x512
  dot_S64x512_S512x2048_S64x2048_1_0_0_1_n_n_wf : DotDims.WF S64x512 S512x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S64x64x512.size a
  hwx0_0 : ∀ i : grid0.Coords, EltTy.bits .f32 = 32 ∨ (Rect.block (s := S64x64x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S64x64x512.size a
  hwx0_1 : ∀ i : grid0.Coords, EltTy.bits .f32 = 32 ∨ (Rect.block (s := S64x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S64x64x512.size a
  hwx0_2 : ∀ i : grid0.Coords, EltTy.bits .f32 = 32 ∨ (Rect.block (s := S64x64x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x512x2048.size a
  hwx0_3 : ∀ i : grid0.Coords, EltTy.bits .bf16 = 32 ∨ (Rect.block (s := S64x512x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x512x2048.size a
  hwx0_4 : ∀ i : grid0.Coords, EltTy.bits .bf16 = 32 ∨ (Rect.block (s := S64x512x2048) S1x512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S64x1x2048.size a
  hwx0_5 : ∀ i : grid0.Coords, EltTy.bits .f32 = 32 ∨ (Rect.block (s := S64x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x512.size a ≤ S64x64x512.size a
  hwx0_6 : ∀ i : grid0.Coords, EltTy.bits .f32 = 32 ∨ (Rect.block (s := S64x64x512) S1x64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x512.size a ≤ S64x64x512.size a
  hwx0_7 : ∀ i : grid0.Coords, EltTy.bits .f32 = 32 ∨ (Rect.block (s := S64x64x512) S1x64x512.size (cc0_transform_7 i) (hinb0_7 i)).WholeWords (EltTy.packing .f32)

variable [Facts₀]

def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S1x64x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1x64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x64x512 : Shape := ⟨3, ![64, 64, 512]⟩
abbrev S64x512x2048 : Shape := ⟨3, ![64, 512, 2048]⟩
abbrev S64x1x2048 : Shape := ⟨3, ![64, 1, 2048]⟩
abbrev S64x64x2048 : Shape := ⟨3, ![64, 64, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S64x64x512, .f32⟩
  | .hbm, ⟨1, _⟩ => ⟨S64x64x512, .f32⟩
  | .hbm, ⟨2, _⟩ => ⟨S64x64x512, .f32⟩
  | .hbm, ⟨3, _⟩ => ⟨S64x512x2048, .f32⟩
  | .hbm, ⟨4, _⟩ => ⟨S64x512x2048, .f32⟩
  | .hbm, ⟨5, _⟩ => ⟨S64x1x2048, .f32⟩
  | .hbm, ⟨6, _⟩ => ⟨S64x64x2048, .f32⟩
  | .hbm, ⟨7, _⟩ => ⟨S64x64x2048, .f32⟩
  | .hbm, ⟨8, _⟩ => ⟨S64x64x2048, .f32⟩
  | .hbm, ⟨9, _⟩ => ⟨S64x64x2048, .f32⟩
  | .hbm, ⟨10, _⟩ => ⟨S64x64x2048, .f32⟩
  | .hbm, ⟨11, _⟩ => ⟨S64x64x512, .f32⟩
  | .hbm, ⟨12, _⟩ => ⟨S64x64x512, .f32⟩
  | .hbm, ⟨13, _⟩ => ⟨S64x64x512, .f32⟩
  | .hbm, ⟨14, _⟩ => ⟨S64x64x512, .f32⟩
  | .hbm, ⟨15, _⟩ => ⟨S64x64x512, .f32⟩
  | .hbm, ⟨16, _⟩ => ⟨S64x64x512, .f32⟩
  | .hbm, ⟨17, _⟩ => ⟨S_, .f32⟩
  | .hbm, ⟨18, _⟩ => ⟨S64x64x512, .f32⟩
  | .hbm, ⟨19, _⟩ => ⟨S64x64x512, .f32⟩
  | .hbm, ⟨20, _⟩ => ⟨S_, .f32⟩
  | .hbm, ⟨21, _⟩ => ⟨S64x64x512, .f32⟩
  | .hbm, ⟨22, _⟩ => ⟨S64x64x512, .f32⟩
  | .hbm, ⟨23, _⟩ => ⟨S64x64x512, .f32⟩
  | .hbm, ⟨24, _⟩ => ⟨S64x64x512, .f32⟩
  | .hbm, ⟨25, _⟩ => ⟨S_, .f32⟩
  | .hbm, ⟨26, _⟩ => ⟨S64x64x512, .f32⟩
  | .hbm, ⟨27, _⟩ => ⟨S64x64x512, .f32⟩
  | .hbm, ⟨28, _⟩ => ⟨S_, .f32⟩
  | .hbm, ⟨29, _⟩ => ⟨S64x64x512, .f32⟩
  | .hbm, ⟨30, _⟩ => ⟨S64x64x512, .f32⟩
  | .hbm, ⟨31, _⟩ => ⟨S64x64x512, .f32⟩
  | .hbm, ⟨32, _⟩ => ⟨S64x64x512, .f32⟩
  | .hbm, ⟨33, _⟩ => ⟨S64x64x512, .f32⟩
  | .hbm, ⟨34, _⟩ => ⟨S64x64x512, .f32⟩
  | .hbm, ⟨35, _⟩ => ⟨S64x64x512, .f32⟩
  | .hbm, ⟨36, _⟩ => ⟨S64x64x512, .f32⟩
  | .hbm, ⟨37, _⟩ => ⟨S_, .f32⟩
  | .hbm, ⟨38, _⟩ => ⟨S64x64x512, .f32⟩
  | .hbm, ⟨39, _⟩ => ⟨S64x64x512, .f32⟩
  | .hbm, ⟨40, _⟩ => ⟨S_, .f32⟩
  | .hbm, ⟨41, _⟩ => ⟨S64x64x512, .f32⟩
  | .hbm, ⟨42, _⟩ => ⟨S64x64x512, .f32⟩
  | .hbm, ⟨43, _⟩ => ⟨S64x64x512, .f32⟩
  | .hbm, ⟨44, _⟩ => ⟨S64x64x512, .f32⟩
  | _, _ => ⟨S64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S64x1x2048_S64x64x2048_0_1_2 : S64x1x2048.BroadcastsInDim S64x64x2048 (![0, 1, 2] : Fin 3 → Fin S64x64x2048.rank)
  slices_S64x64x2048_S64x64x512_0_0_0 : S64x64x2048.Slices ![0, 0, 0] S64x64x512
  slices_S64x64x2048_S64x64x512_0_0_512 : S64x64x2048.Slices ![0, 0, 512] S64x64x512
  slices_S64x64x2048_S64x64x512_0_0_1024 : S64x64x2048.Slices ![0, 0, 1024] S64x64x512
  slices_S64x64x2048_S64x64x512_0_0_1536 : S64x64x2048.Slices ![0, 0, 1536] S64x64x512
  bcast_S_S64x64x512 : S_.BroadcastsInDim S64x64x512 (![] : Fin 0 → Fin S64x64x512.rank)
  dot_S64x64x512_S64x512x2048_S64x64x2048_2_1_1_2_0_0_wf : DotDims.WF S64x64x512 S64x512x2048 S64x64x2048 [2] [1] [1] [2] [0] [0]

variable [Facts₀]

def dot_S64x64x512_S64x512x2048_S64x64x2048_2_1_1_2_0_0 : DotDims S64x64x512 S64x512x2048 S64x64x2048 where
  lhsContracting := [2]
  rhsContracting := [1]
  lhsNonContracting := [1]
  rhsNonContracting := [2]
  lhsBatch := [0]
  rhsBatch := [0]
  wf := dot_S64x64x512_S64x512x2048_S64x64x2048_2_1_1_2_0_0_wf

class Facts : Prop extends Facts₀ where

variable [Facts]
-- ==== Proof.CellSpec.lean ====
/-
  The long short-term memory cell, stated once over whole arrays of extended reals.

  For model `m`, batch row `b` and gate column `u` the pre-activation is
    z[m, b, u] = Σ_k x[m, b, k] · K[m, k, u] + Σ_k h[m, b, k] · R[m, k, u] + bias[m, 0, u],
  two contractions over the 512 input (resp. hidden) features and a bias row shared by the batch.
  The 2048 gate columns are four consecutive groups of 512: input gate, forget gate, candidate, output gate.
  With σ the logistic function `1 / (1 + e⁻ᶻ)`, the new cell state and hidden state at unit `u` are
    c'[m, b, u] = σ(z[m, b, 512 + u]) · c[m, b, u] + σ(z[m, b, u]) · tanh(z[m, b, 1024 + u]),
    h'[m, b, u] = σ(z[m, b, 1536 + u]) · tanh(c'[m, b, u]).
  Nothing below needs an argument to be finite: only the order in which the two programs
  write these operations is compared, and it is the same.
-/
import Idealize.ShloMosaic.PureOps.Ideal
import Idealize.ShloMosaic.PureOps.Ideal.Laws
import Idealize.ShloMosaic.Lib.ValueIdx
import Idealize.ShloMosaic.Lib.IdealHost

noncomputable section

namespace Cert.LstmCell

open Idealize.ShloMosaic Idealize.ShloMosaic.ValueIdx
open scoped BigOperators

/-- Activations of `M` models: `M` × 64 batch rows × 512 features. -/
abbrev ActS (M : Nat) : Shape := ⟨3, ![M, 64, 512]⟩
/-- Weights of `M` models: `M` × 512 features × 2048 gate columns. -/
abbrev WgtS (M : Nat) : Shape := ⟨3, ![M, 512, 2048]⟩
/-- Biases of `M` models: `M` × one row × 2048 gate columns. -/
abbrev BiasS (M : Nat) : Shape := ⟨3, ![M, 1, 2048]⟩

/-- One pre-activation from the two feature rows, the two weight columns and the bias entry it reads. -/
def preactRow (xr hr Kc Rc : Fin 512 → EReal) (bv : EReal) : EReal :=
  (∑ k : Fin 512, xr k * Kc k) + (∑ k : Fin 512, hr k * Rc k) + bv

/-- The new cell state from the input-gate, forget-gate and candidate pre-activations and the old cell state. -/
def cellOf (zi zf zg cprev : EReal) : EReal :=
  Ideal.logistic zf * cprev + Ideal.logistic zi * Ideal.tanh zg

/-- The new hidden state from the output-gate pre-activation and the new cell state. -/
def hidOf (zo cnew : EReal) : EReal :=
  Ideal.logistic zo * Ideal.tanh cnew

/-- Unit `u` of the gate group that starts at column `off`. -/
def gcol (off : Nat) (hoff : off + 512 ≤ 2048) (u : Fin 512) : Fin 2048 :=
  ⟨off + u.val, by have := u.isLt; omega⟩

section
variable {M : Nat}

/-- The pre-activation of model `m`, batch row `b`, gate column `u`, over arrays of `M` models. -/
def preact (x h : (ActS M).Idx → EReal) (K R : (WgtS M).Idx → EReal) (bias : (BiasS M).Idx → EReal)
    (m : Fin M) (b : Fin 64) (u : Fin 2048) : EReal :=
  preactRow (fun k => x (ix3 m b k)) (fun k => h (ix3 m b k)) (fun k => K (ix3 m k u)) (fun k => R (ix3 m k u))
    (bias (ix3 m (0 : Fin 1) u))

/-- The new cell state, index by index. -/
def cellNew (x h c : (ActS M).Idx → EReal) (K R : (WgtS M).Idx → EReal) (bias : (BiasS M).Idx → EReal) : (ActS M).Idx → EReal := fun i =>
  cellOf (preact x h K R bias (i 0) (i 1) (gcol 0 (by omega) (i 2)))
    (preact x h K R bias (i 0) (i 1) (gcol 512 (by omega) (i 2)))
    (preact x h K R bias (i 0) (i 1) (gcol 1024 (by omega) (i 2))) (c i)

/-- The new hidden state, index by index. -/
def hidNew (x h c : (ActS M).Idx → EReal) (K R : (WgtS M).Idx → EReal) (bias : (BiasS M).Idx → EReal) : (ActS M).Idx → EReal := fun i =>
  hidOf (preact x h K R bias (i 0) (i 1) (gcol 1536 (by omega) (i 2))) (cellNew x h c K R bias i)

/-! ## One model at a time

The models do not interact: the cell of model `m` reads only slice `m` of every argument. So arrays of ONE
model that agree with slice `m` of arrays of `M` models give, at (0, b, u), what the `M` models give at (m, b, u). -/

variable (x h c : (ActS M).Idx → EReal) (K R : (WgtS M).Idx → EReal) (bias : (BiasS M).Idx → EReal) (m : Fin M)
  (x' h' c' : (ActS 1).Idx → EReal) (K' R' : (WgtS 1).Idx → EReal) (bias' : (BiasS 1).Idx → EReal)

theorem preact_slice (hx : ∀ b k, x' (ix3 (0 : Fin 1) b k) = x (ix3 m b k)) (hh : ∀ b k, h' (ix3 (0 : Fin 1) b k) = h (ix3 m b k))
    (hK : ∀ k u, K' (ix3 (0 : Fin 1) k u) = K (ix3 m k u)) (hR : ∀ k u, R' (ix3 (0 : Fin 1) k u) = R (ix3 m k u))
    (hb : ∀ u, bias' (ix3 (0 : Fin 1) (0 : Fin 1) u) = bias (ix3 m (0 : Fin 1) u)) (b : Fin 64) (u : Fin 2048) :
    preact x' h' K' R' bias' (0 : Fin 1) b u = preact x h K R bias m b u := by
  unfold preact
  simp only [hx, hh, hK, hR, hb]

theorem cellNew_slice (hx : ∀ b k, x' (ix3 (0 : Fin 1) b k) = x (ix3 m b k)) (hh : ∀ b k, h' (ix3 (0 : Fin 1) b k) = h (ix3 m b k))
    (hc : ∀ b k, c' (ix3 (0 : Fin 1) b k) = c (ix3 m b k))
    (hK : ∀ k u, K' (ix3 (0 : Fin 1) k u) = K (ix3 m k u)) (hR : ∀ k u, R' (ix3 (0 : Fin 1) k u) = R (ix3 m k u))
    (hb : ∀ u, bias' (ix3 (0 : Fin 1) (0 : Fin 1) u) = bias (ix3 m (0 : Fin 1) u)) (b : Fin 64) (u : Fin 512) :
    cellNew x' h' c' K' R' bias' (ix3 (0 : Fin 1) b u) = cellNew x h c K R bias (ix3 m b u) := by
  show cellOf (preact x' h' K' R' bias' (0 : Fin 1) b (gcol 0 (by omega) u)) (preact x' h' K' R' bias' (0 : Fin 1) b (gcol 512 (by omega) u))
      (preact x' h' K' R' bias' (0 : Fin 1) b (gcol 1024 (by omega) u)) (c' (ix3 (0 : Fin 1) b u))
    = cellOf (preact x h K R bias m b (gcol 0 (by omega) u)) (preact x h K R bias m b (gcol 512 (by omega) u))
      (preact x h K R bias m b (gcol 1024 (by omega) u)) (c (ix3 m b u))
  rw [preact_slice x h K R bias m x' h' K' R' bias' hx hh hK hR hb, preact_slice x h K R bias m x' h' K' R' bias' hx hh hK hR hb,
    preact_slice x h K R bias m x' h' K' R' bias' hx hh hK hR hb, hc]

theorem hidNew_slice (hx : ∀ b k, x' (ix3 (0 : Fin 1) b k) = x (ix3 m b k)) (hh : ∀ b k, h' (ix3 (0 : Fin 1) b k) = h (ix3 m b k))
    (hc : ∀ b k, c' (ix3 (0 : Fin 1) b k) = c (ix3 m b k))
    (hK : ∀ k u, K' (ix3 (0 : Fin 1) k u) = K (ix3 m k u)) (hR : ∀ k u, R' (ix3 (0 : Fin 1) k u) = R (ix3 m k u))
    (hb : ∀ u, bias' (ix3 (0 : Fin 1) (0 : Fin 1) u) = bias (ix3 m (0 : Fin 1) u)) (b : Fin 64) (u : Fin 512) :
    hidNew x' h' c' K' R' bias' (ix3 (0 : Fin 1) b u) = hidNew x h c K R bias (ix3 m b u) := by
  show hidOf (preact x' h' K' R' bias' (0 : Fin 1) b (gcol 1536 (by omega) u)) (cellNew x' h' c' K' R' bias' (ix3 (0 : Fin 1) b u))
    = hidOf (preact x h K R bias m b (gcol 1536 (by omega) u)) (cellNew x h c K R bias (ix3 m b u))
  rw [preact_slice x h K R bias m x' h' K' R' bias' hx hh hK hR hb, cellNew_slice x h c K R bias m x' h' c' K' R' bias' hx hh hc hK hR hb]

end

/-- The logistic function spelt with the f32 pattern of one, a negation, an exponential, a sum and a quotient
    is the logistic function: the pattern `0x3F800000` denotes the real number one. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

end Cert.LstmCell

end
-- ==== Proof.RefCell.lean ====
/-
  The reference program computes the cell of CellSpec: its two batched contractions and the broadcast bias
  are the pre-activation `preact`, its four slices of width 512 are the four gate groups, and its
  logistic function is written out as `1 / (1 + exp (-z))` with the f32 pattern of one.
-/
import proofs.«151474_j75385265979695_1_alg».proof.Proof.Gen.ReferenceIdeal.Read
import proofs.«151474_j75385265979695_1_alg».proof.Proof.CellSpec

noncomputable section

namespace Cert.ReferenceIdeal.CellValue

open Cert.ReferenceIdeal Cert.ReferenceIdeal.Read Cert.LstmCell
open Idealize.ShloMosaic Idealize.ShloMosaic.ValueIdx
open scoped BigOperators

/-- The sum of the two contractions and the bias, at an index of the 64 × 64 × 2048 array, is the pre-activation
    of that model, batch row and gate column: the contraction of the left operand's last axis with the right
    operand's middle axis reads `x[m, b, k]` and `K[m, k, u]`, and the bias is read at its one row. -/
theorem preact_eq (x0 x1 : (ActS 64).Idx → EReal) (x3 x4 : (WgtS 64).Idx → EReal) (x5 : (BiasS 64).Idx → EReal) (j : S64x64x2048.Idx) :
    val_main_v4 (F := Ideal) x0 x1 x3 x4 x5 j = preact x0 x1 x3 x4 x5 (j 0) (j 1) (j 2) := by
  rw [val_main_v4_apply, val_main_v2_apply, val_main_v0_apply, val_main_v1_apply, val_main_v3_apply]
  have el0 : ∀ k : Fin 512, lidx_main_v0 j k = ix3 (j 0) (j 1) k := fun k => funext fun a => by
    match a with | ⟨0, _⟩ => rfl | ⟨1, _⟩ => rfl | ⟨2, _⟩ => rfl
  have er0 : ∀ k : Fin 512, ridx_main_v0 j k = ix3 (j 0) k (j 2) := fun k => funext fun a => by
    match a with | ⟨0, _⟩ => rfl | ⟨1, _⟩ => rfl | ⟨2, _⟩ => rfl
  have el1 : ∀ k : Fin 512, lidx_main_v1 j k = ix3 (j 0) (j 1) k := fun k => funext fun a => by
    match a with | ⟨0, _⟩ => rfl | ⟨1, _⟩ => rfl | ⟨2, _⟩ => rfl
  have er1 : ∀ k : Fin 512, ridx_main_v1 j k = ix3 (j 0) k (j 2) := fun k => funext fun a => by
    match a with | ⟨0, _⟩ => rfl | ⟨1, _⟩ => rfl | ⟨2, _⟩ => rfl
  have eb : idx_main_v3 j = ix3 (j 0) (0 : Fin 1) (j 2) := funext fun a => by
    match a with | ⟨0, _⟩ => rfl | ⟨1, _⟩ => rfl | ⟨2, _⟩ => rfl
  simp only [el0, er0, el1, er1, eb]
  rfl

/-- The first slice starts at column zero: its column is unit `u` of the gate group at offset zero. -/
theorem col0_eq (i : S64x64x512.Idx) : idx_main_v5 i 2 = gcol 0 (by omega) (i 2) :=
  Fin.ext (by show (i 2).val = 0 + (i 2).val; omega)

/-- The reference's second result, the new cell state. -/
theorem cell_eq (x0 x1 x2 : (ActS 64).Idx → EReal) (x3 x4 : (WgtS 64).Idx → EReal) (x5 : (BiasS 64).Idx → EReal) :
    val_main_v24 (F := Ideal) x0 x1 x2 x3 x4 x5 = cellNew x0 x1 x2 x3 x4 x5 := by
  funext i
  rw [val_main_v24_apply, val_main_v21_apply, val_main_v20_apply, val_main_v19_apply, val_main_cst_2_apply,
    val_main_v18_apply, val_main_v17_apply, val_main_cst_1_apply, val_main_v16_apply, val_main_v15_apply,
    val_main_v6_apply, val_main_v23_apply, val_main_v14_apply, val_main_v13_apply, val_main_cst_0_apply,
    val_main_v12_apply, val_main_v11_apply, val_main_cst_apply, val_main_v10_apply, val_main_v9_apply,
    val_main_v5_apply, val_main_v22_apply, val_main_v7_apply]
  simp only [preact_eq]
  simp only [Ideal.addf_def, Ideal.mulf_def, Ideal.hostDivf_def, Ideal.hostUnary_exp_def, Ideal.hostNegf_def,
    Ideal.negf_def, Ideal.hostUnary_tanh_def, Ideal.ofBits_def, logistic_spelt]
  rw [col0_eq]
  rfl

/-- The reference's first result (returned twice), the new hidden state. -/
theorem hid_eq (x0 x1 x2 : (ActS 64).Idx → EReal) (x3 x4 : (WgtS 64).Idx → EReal) (x5 : (BiasS 64).Idx → EReal) :
    val_main_v32 (F := Ideal) x0 x1 x2 x3 x4 x5 = hidNew x0 x1 x2 x3 x4 x5 := by
  funext i
  rw [val_main_v32_apply, val_main_v30_apply, val_main_v29_apply, val_main_cst_4_apply, val_main_v28_apply,
    val_main_v27_apply, val_main_cst_3_apply, val_main_v26_apply, val_main_v25_apply, val_main_v8_apply,
    val_main_v31_apply]
  rw [cell_eq]
  simp only [preact_eq]
  simp only [Ideal.addf_def, Ideal.mulf_def, Ideal.hostDivf_def, Ideal.hostUnary_exp_def, Ideal.hostNegf_def,
    Ideal.negf_def, Ideal.hostUnary_tanh_def, Ideal.ofBits_def, logistic_spelt]
  rfl

end Cert.ReferenceIdeal.CellValue

end
-- ==== Proof.KernelPreact.lean ====
/-
  The kernel body's pre-activation, read at an index. One grid point holds one model: blocks
  x, h of shape [1, 64, 512], weight blocks K, R of shape [1, 512, 2048] and a bias block [1, 1, 2048].
  The body drops the unit axis, multiplies [64, 512] by [512, 2048] into a zero accumulator twice,
  adds the two products and adds the bias row broadcast over the 64 batch rows. A change of float
  format is the identity on extended reals, so entry (b, u) is
    Σ_k x[0, b, k] · K[0, k, u] + Σ_k h[0, b, k] · R[0, k, u] + bias[0, 0, u].
-/
import proofs.«151474_j75385265979695_1_alg».proof.Proof.Gen.KernelIdeal.Skeleton
import proofs.«151474_j75385265979695_1_alg».proof.Proof.CellSpec
import Idealize.ShloMosaic.Lib.Pipeline.Value

noncomputable section

namespace Cert.KernelIdeal.CellValue

open Cert.KernelIdeal Cert.KernelIdeal.Gen Cert.LstmCell
open Idealize.ShloMosaic Idealize.ShloMosaic.ValueIdx
open scoped BigOperators

/-! ## The plain matrix product's operand indices -/

theorem lhs_row (i : S64x2048.Idx) (q : dot_S64x512_S512x2048_S64x2048_1_0_0_1_n_n.contr.Idx) :
    (dot_S64x512_S512x2048_S64x2048_1_0_0_1_n_n.lhsIdx i q 0).val = (i 0).val := by
  unfold DotDims.lhsIdx
  rw [dif_neg (show ¬(0 : Fin S64x512.rank) ∈ dot_S64x512_S512x2048_S64x2048_1_0_0_1_n_n.lhsBatch by decide), dif_pos (show (0 : Fin S64x512.rank) ∈ dot_S64x512_S512x2048_S64x2048_1_0_0_1_n_n.lhsNonContracting by decide)]
  rfl
theorem lhs_contr (i : S64x2048.Idx) (q : dot_S64x512_S512x2048_S64x2048_1_0_0_1_n_n.contr.Idx) :
    (dot_S64x512_S512x2048_S64x2048_1_0_0_1_n_n.lhsIdx i q 1).val = (q ⟨0, by decide⟩).val :=
  dot_S64x512_S512x2048_S64x2048_1_0_0_1_n_n.lhsIdx_val_of_single rfl i q
theorem rhs_contr (i : S64x2048.Idx) (q : dot_S64x512_S512x2048_S64x2048_1_0_0_1_n_n.contr.Idx) :
    (dot_S64x512_S512x2048_S64x2048_1_0_0_1_n_n.rhsIdx i q 0).val = (q ⟨0, by decide⟩).val :=
  dot_S64x512_S512x2048_S64x2048_1_0_0_1_n_n.rhsIdx_val_of_single rfl i q
theorem rhs_col (i : S64x2048.Idx) (q : dot_S64x512_S512x2048_S64x2048_1_0_0_1_n_n.contr.Idx) :
    (dot_S64x512_S512x2048_S64x2048_1_0_0_1_n_n.rhsIdx i q 1).val = (i 1).val := by
  unfold DotDims.rhsIdx
  rw [dif_neg (show ¬(1 : Fin S512x2048.rank) ∈ dot_S64x512_S512x2048_S64x2048_1_0_0_1_n_n.rhsBatch by decide), dif_pos (show (1 : Fin S512x2048.rank) ∈ dot_S64x512_S512x2048_S64x2048_1_0_0_1_n_n.rhsNonContracting by decide)]
  rfl

/-- A [64, 512] by [512, 2048] product into the zero accumulator, at entry (b, u): the sum over the 512
    contracted features of row `b` of the left operand times column `u` of the right. -/
theorem matmul_zero_apply (A : FVec Ideal S64x512 .bf16) (B : FVec Ideal S512x2048 .bf16) (b : Fin 64) (u : Fin 2048) :
    matmul dot_S64x512_S512x2048_S64x2048_1_0_0_1_n_n none A B (constant S64x2048 .f32 0x00000000#32) (ix2 b u)
      = ∑ k : Fin 512, A (ix2 b k) * B (ix2 k u) := by
  simp only [matmul]
  rw [Ideal.matmul_constant_zero_apply, ← Equiv.sum_comp (ValueIdx.contrEquiv1 dot_S64x512_S512x2048_S64x2048_1_0_0_1_n_n 512 rfl rfl).symm]
  refine Finset.sum_congr rfl fun k _ => ?_
  have hk := ValueIdx.contrEquiv1_symm_val dot_S64x512_S512x2048_S64x2048_1_0_0_1_n_n 512 rfl rfl k
  have el : dot_S64x512_S512x2048_S64x2048_1_0_0_1_n_n.lhsIdx (ix2 b u) ((ValueIdx.contrEquiv1 dot_S64x512_S512x2048_S64x2048_1_0_0_1_n_n 512 rfl rfl).symm k) = ix2 b k := funext fun a => Fin.ext (by
    match a with
    | ⟨0, _⟩ => exact lhs_row _ _
    | ⟨1, _⟩ => exact (lhs_contr _ _).trans hk)
  have er : dot_S64x512_S512x2048_S64x2048_1_0_0_1_n_n.rhsIdx (ix2 b u) ((ValueIdx.contrEquiv1 dot_S64x512_S512x2048_S64x2048_1_0_0_1_n_n 512 rfl rfl).symm k) = ix2 k u := funext fun a => Fin.ext (by
    match a with
    | ⟨0, _⟩ => exact (rhs_contr _ _).trans hk
    | ⟨1, _⟩ => exact rhs_col _ _)
  rw [el, er]

/-! ## Dropping the unit axis, and the bias row -/

/-- An activation block without its unit axis, at (b, k). -/
theorem act_cast_apply (P : Vec Ideal S1x64x512 .f32) (b : Fin 64) (k : Fin 512) :
    shapeCast S64x512 P Facts₀.shapeCasts_S1x64x512_S64x512 (ix2 b k) = P (ix3 (0 : Fin 1) b k) :=
  shapeCast_apply _ _ (ix2 b k) (ix3 (0 : Fin 1) b k) (by
    rw [Shape.rowMajor_val_three, Shape.rowMajor_val_two]
    show (0 * 64 + b.val) * 512 + k.val = b.val * 512 + k.val; omega)

/-- A weight block without its unit axis, at (k, u). -/
theorem wgt_cast_apply (P : Vec Ideal S1x512x2048 .bf16) (k : Fin 512) (u : Fin 2048) :
    shapeCast S512x2048 P Facts₀.shapeCasts_S1x512x2048_S512x2048 (ix2 k u) = P (ix3 (0 : Fin 1) k u) :=
  shapeCast_apply _ _ (ix2 k u) (ix3 (0 : Fin 1) k u) (by
    rw [Shape.rowMajor_val_three, Shape.rowMajor_val_two]
    show (0 * 512 + k.val) * 2048 + u.val = k.val * 2048 + u.val; omega)

/-- The bias block as one row, broadcast over the 64 batch rows, at (b, u): entry `u` of the row. -/
theorem bias_bcast_apply (P : Vec Ideal S1x1x2048 .f32) (b : Fin 64) (u : Fin 2048) :
    broadcastTo S64x2048 (shapeCast S1x2048 P Facts₀.shapeCasts_S1x1x2048_S1x2048) Facts₀.broadcasts_S1x2048_S64x2048 (ix2 b u)
      = P (ix3 (0 : Fin 1) (0 : Fin 1) u) := by
  refine (broadcastTo_apply _ _ (ix2 b u) (ix2 (0 : Fin 1) u) (fun a => by
    match a with
    | ⟨0, _⟩ => show 0 = if (1 : Nat) = 1 then 0 else _; rw [if_pos rfl]
    | ⟨1, _⟩ => show u.val = if (2048 : Nat) = 1 then 0 else u.val; rw [if_neg (by decide)])).trans ?_
  exact shapeCast_apply _ _ (ix2 (0 : Fin 1) u) (ix3 (0 : Fin 1) (0 : Fin 1) u) (by
    rw [Shape.rowMajor_val_three, Shape.rowMajor_val_two]
    show (0 * 1 + 0) * 2048 + u.val = 0 * 2048 + u.val; omega)

/-! ## The pre-activation payload at an index -/

/-- Entry (b, u) of the body's pre-activation is `preactRow` of row `b` of the two activation blocks,
    column `u` of the two weight blocks and entry `u` of the bias block. -/
theorem pay_preact_apply (P0 P1 : Vec Ideal S1x64x512 .f32) (P2 P3 : Vec Ideal S1x512x2048 .bf16) (P4 : Vec Ideal S1x1x2048 .f32)
    (b : Fin 64) (u : Fin 2048) :
    k0_pay2 (F := Ideal) P0 P1 P2 P3 P4 (ix2 b u)
      = preactRow (fun k => P0 (ix3 (0 : Fin 1) b k)) (fun k => P1 (ix3 (0 : Fin 1) b k))
          (fun k => P2 (ix3 (0 : Fin 1) k u)) (fun k => P3 (ix3 (0 : Fin 1) k u)) (P4 (ix3 (0 : Fin 1) (0 : Fin 1) u)) := by
  unfold k0_pay2 preactRow
  dsimp only
  rw [addf_apply, addf_apply, matmul_zero_apply, matmul_zero_apply, bias_bcast_apply]
  refine congrArg₂ (· + ·) (congrArg₂ (· + ·) (Finset.sum_congr rfl fun k _ => ?_) (Finset.sum_congr rfl fun k _ => ?_)) rfl
  · exact congrArg₂ (· * ·) (act_cast_apply P0 b k) (wgt_cast_apply P2 k u)
  · exact congrArg₂ (· * ·) (act_cast_apply P1 b k) (wgt_cast_apply P3 k u)

end Cert.KernelIdeal.CellValue

end
-- ==== Proof.KernelCell.lean ====
/-
  What one grid point leaves in the two output blocks. The generated value leg reads each output block as an
  index-by-index function of the loaded blocks with the pre-activation kept whole; with the pre-activation
  read at an index (KernelPreact) the hidden-state block and the cell-state block are the cell of CellSpec
  for ONE model, whose arrays are the point's six input blocks.
-/
import proofs.«151474_j75385265979695_1_alg».proof.Proof.Gen.KernelIdeal.Value
import proofs.«151474_j75385265979695_1_alg».proof.Proof.KernelPreact

noncomputable section

namespace Cert.KernelIdeal.CellValue

open Cert.KernelIdeal Cert.KernelIdeal.Gen Cert.LstmCell
open Idealize.ShloMosaic Idealize.ShloMosaic.ValueIdx
open scoped BigOperators

/-- The pre-activation payload at (b, u) is the one-model pre-activation of the blocks. -/
theorem pay_preact_eq (P0 P1 : Vec Ideal S1x64x512 .f32) (P2 P3 : Vec Ideal S1x512x2048 .bf16) (P4 : Vec Ideal S1x1x2048 .f32)
    (b : Fin 64) (u : Fin 2048) :
    k0_pay2 (F := Ideal) P0 P1 P2 P3 P4 (ix2 b u) = preact (M := 1) P0 P1 P2 P3 P4 (0 : Fin 1) b u :=
  pay_preact_apply P0 P1 P2 P3 P4 b u

/-- The hidden-state block: output gate times tanh of the new cell state. -/
theorem hid_block_apply (P0 P1 : Vec Ideal S1x64x512 .f32) (P2 P3 : Vec Ideal S1x512x2048 .bf16) (P4 : Vec Ideal S1x1x2048 .f32)
    (P5 : Vec Ideal S1x64x512 .f32) (b : Fin 64) (u : Fin 512) :
    Value.E6 (F := Ideal) P0 P1 P2 P3 P4 P5 (ix3 (0 : Fin 1) b u) = hidNew (M := 1) P0 P1 P5 P2 P3 P4 (ix3 (0 : Fin 1) b u) := by
  have e0 : Value.ix6_0 (ix3 (0 : Fin 1) b u) = ix2 b (gcol 1536 (by omega) u) := funext fun a => Fin.ext (by
    match a with
    | ⟨0, _⟩ => rfl
    | ⟨1, _⟩ => show u.val + 1536 = 1536 + u.val; omega)
  have e1 : Value.ix6_1 (ix3 (0 : Fin 1) b u) = ix2 b (gcol 512 (by omega) u) := funext fun a => Fin.ext (by
    match a with
    | ⟨0, _⟩ => rfl
    | ⟨1, _⟩ => show u.val + 512 = 512 + u.val; omega)
  have e2 : Value.ix6_2 (ix3 (0 : Fin 1) b u) = ix3 (0 : Fin 1) b u := funext fun a => Fin.ext (by
    match a with
    | ⟨0, _⟩ => rfl
    | ⟨1, _⟩ => rfl
    | ⟨2, _⟩ => rfl)
  have e3 : Value.ix6_3 (ix3 (0 : Fin 1) b u) = ix2 b (gcol 0 (by omega) u) := funext fun a => Fin.ext (by
    match a with
    | ⟨0, _⟩ => rfl
    | ⟨1, _⟩ => show u.val = 0 + u.val; omega)
  have e4 : Value.ix6_4 (ix3 (0 : Fin 1) b u) = ix2 b (gcol 1024 (by omega) u) := funext fun a => Fin.ext (by
    match a with
    | ⟨0, _⟩ => rfl
    | ⟨1, _⟩ => show u.val + 1024 = 1024 + u.val; omega)
  unfold Value.E6
  rw [e0, e1, e2, e3, e4, pay_preact_eq, pay_preact_eq, pay_preact_eq, pay_preact_eq]
  rfl

/-- The cell-state block: forget gate times the old cell state plus input gate times the candidate. -/
theorem cell_block_apply (P0 P1 : Vec Ideal S1x64x512 .f32) (P2 P3 : Vec Ideal S1x512x2048 .bf16) (P4 : Vec Ideal S1x1x2048 .f32)
    (P5 : Vec Ideal S1x64x512 .f32) (b : Fin 64) (u : Fin 512) :
    Value.E7 (F := Ideal) P0 P1 P2 P3 P4 P5 (ix3 (0 : Fin 1) b u) = cellNew (M := 1) P0 P1 P5 P2 P3 P4 (ix3 (0 : Fin 1) b u) := by
  have e0 : Value.ix7_0 (ix3 (0 : Fin 1) b u) = ix2 b (gcol 512 (by omega) u) := funext fun a => Fin.ext (by
    match a with
    | ⟨0, _⟩ => rfl
    | ⟨1, _⟩ => show u.val + 512 = 512 + u.val; omega)
  have e1 : Value.ix7_1 (ix3 (0 : Fin 1) b u) = ix3 (0 : Fin 1) b u := funext fun a => Fin.ext (by
    match a with
    | ⟨0, _⟩ => rfl
    | ⟨1, _⟩ => rfl
    | ⟨2, _⟩ => rfl)
  have e2 : Value.ix7_2 (ix3 (0 : Fin 1) b u) = ix2 b (gcol 0 (by omega) u) := funext fun a => Fin.ext (by
    match a with
    | ⟨0, _⟩ => rfl
    | ⟨1, _⟩ => show u.val = 0 + u.val; omega)
  have e3 : Value.ix7_3 (ix3 (0 : Fin 1) b u) = ix2 b (gcol 1024 (by omega) u) := funext fun a => Fin.ext (by
    match a with
    | ⟨0, _⟩ => rfl
    | ⟨1, _⟩ => show u.val + 1024 = 1024 + u.val; omega)
  unfold Value.E7
  rw [e0, e1, e2, e3, pay_preact_eq, pay_preact_eq, pay_preact_eq]
  rfl

/-- The zero offsets of a load or store of a whole block. -/
theorem zero_off : (![0, 0, 0] : Fin 3 → Nat) = fun _ => 0 := funext fun a => by fin_cases a <;> rfl

/-- What the body leaves in the first output's staging buffer, from the six input blocks. -/
theorem hid_out_apply (B0 B1 B2 : Vec Ideal S1x64x512 .f32) (B3 B4 : Vec Ideal S1x512x2048 .bf16) (B5 : Vec Ideal S1x1x2048 .f32)
    (b : Fin 64) (u : Fin 512) :
    out0_6 (F := Ideal) B0 B1 B2 B3 B4 B5 (ix3 (0 : Fin 1) b u) = hidNew (M := 1) B0 B1 B2 B3 B4 B5 (ix3 (0 : Fin 1) b u) := by
  unfold out0_6
  simp only [View.ld_unit_zero (S := S1x64x512) zero_off, View.ld_unit_zero (S := S1x512x2048) zero_off,
    View.ld_unit_zero (S := S1x1x2048) zero_off]
  rw [Value.canon6_eq]
  exact hid_block_apply B0 B1 B3 B4 B5 B2 b u

/-- What the body leaves in the second output's staging buffer, from the six input blocks. -/
theorem cell_out_apply (B0 B1 B2 : Vec Ideal S1x64x512 .f32) (B3 B4 : Vec Ideal S1x512x2048 .bf16) (B5 : Vec Ideal S1x1x2048 .f32)
    (b : Fin 64) (u : Fin 512) :
    out0_7 (F := Ideal) B0 B1 B2 B3 B4 B5 (ix3 (0 : Fin 1) b u) = cellNew (M := 1) B0 B1 B2 B3 B4 B5 (ix3 (0 : Fin 1) b u) := by
  unfold out0_7
  simp only [View.ld_unit_zero (S := S1x64x512) zero_off, View.ld_unit_zero (S := S1x512x2048) zero_off,
    View.ld_unit_zero (S := S1x1x2048) zero_off]
  rw [Value.canon7_eq]
  exact cell_block_apply B0 B1 B3 B4 B5 B2 b u

end Cert.KernelIdeal.CellValue

end
-- ==== Proof.KernelBlocks.lean ====
/-
  From blocks to arrays. The grid has one point per model; at point `t` every window's block is slice `t` of its
  array (block index (t, 0, 0) on all eight windows), so what the point writes back is slice `t` of the cell of
  the whole arrays, and the 64 blocks tile each output array. The two weight arrays the region reads are the
  arguments after a change of float format, which is the identity on extended reals.
-/
import proofs.«151474_j75385265979695_1_alg».proof.Proof.KernelCell
import Idealize.ShloMosaic.Lib.StableHlo.Run

set_option maxRecDepth 16384

noncomputable section

namespace Cert.KernelIdeal.CellValue

open Cert.KernelIdeal Cert.KernelIdeal.Gen Cert.LstmCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The model a grid point works on: the grid's one axis has 64 points. -/
def mdl (t : Fin cfg0.N) : Fin 64 := ⟨t.val, Nat.lt_of_lt_of_eq t.isLt N_0⟩

/-! ## The printed index maps, decided over the grid: block (t, 0, 0) on every window -/

theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_facts1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_facts2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_facts3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_facts4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_facts5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_facts6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_facts7 : ∀ t : Fin cfg0.N, win0_7.index t (0 : Fin 3) = t.val ∧ win0_7.index t (1 : Fin 3) = 0 ∧ win0_7.index t (2 : Fin 3) = 0 :=
  (by decide +kernel : ∀ t : Fin grid0.N, _)

/-! ## The arrays as the region finds them, and the point's blocks, at their literal types -/

abbrev xArr (c : Dev nD) : (ActS 64).Idx → EReal := V m c main_arg0
abbrev hArr (c : Dev nD) : (ActS 64).Idx → EReal := V m c main_arg1
abbrev cArr (c : Dev nD) : (ActS 64).Idx → EReal := V m c main_arg2
abbrev kArr (c : Dev nD) : (WgtS 64).Idx → EReal := V m c main_v0
abbrev rArr (c : Dev nD) : (WgtS 64).Idx → EReal := V m c main_v1
abbrev bArr (c : Dev nD) : (BiasS 64).Idx → EReal := V m c main_arg5

abbrev xBlk (c : Dev nD) (t : Fin cfg0.N) : Vec Ideal S1x64x512 .f32 := iblk m c 0 t
abbrev hBlk (c : Dev nD) (t : Fin cfg0.N) : Vec Ideal S1x64x512 .f32 := iblk m c 1 t
abbrev cBlk (c : Dev nD) (t : Fin cfg0.N) : Vec Ideal S1x64x512 .f32 := iblk m c 2 t
abbrev kBlk (c : Dev nD) (t : Fin cfg0.N) : Vec Ideal S1x512x2048 .bf16 := iblk m c 3 t
abbrev rBlk (c : Dev nD) (t : Fin cfg0.N) : Vec Ideal S1x512x2048 .bf16 := iblk m c 4 t
abbrev bBlk (c : Dev nD) (t : Fin cfg0.N) : Vec Ideal S1x1x2048 .f32 := iblk m c 5 t

theorem xArr_eq (c : Dev nD) : xArr m c = m ((c : Thread nD τ).loc main_arg0) := V_main_arg0 m c
theorem hArr_eq (c : Dev nD) : hArr m c = m ((c : Thread nD τ).loc main_arg1) := V_main_arg1 m c
theorem cArr_eq (c : Dev nD) : cArr m c = m ((c : Thread nD τ).loc main_arg2) := V_main_arg2 m c
theorem bArr_eq (c : Dev nD) : bArr m c = m ((c : Thread nD τ).loc main_arg5) := V_main_arg5 m c

/-- The input weights as the region finds them: the argument, its change of float format the identity. -/
theorem kArr_eq (c : Dev nD) : kArr m c = m ((c : Thread nD τ).loc main_arg3) := by
  show (V m c main_v0 : (WgtS 64).Idx → EReal) = _
  dsimp only [Gen.V, Gen.hostOps0]; after_results; rfl

/-- The recurrent weights as the region finds them: the argument, its change of float format the identity. -/
theorem rArr_eq (c : Dev nD) : rArr m c = m ((c : Thread nD τ).loc main_arg4) := by
  show (V m c main_v1 : (WgtS 64).Idx → EReal) = _
  dsimp only [Gen.V, Gen.hostOps0]; after_results; rfl

/-! ## Each input block is slice `t` of its array -/

/-- The input block at point `t` is the inputs of model `t`. -/
theorem x_blk (c : Dev nD) (t : Fin cfg0.N) (a : Fin 64) (b : Fin 512) :
    xBlk m c t (ix3 (0 : Fin 1) a b) = xArr m c (ix3 (mdl t) a b) := by
  obtain ⟨h0, h1, h2⟩ := idx_facts0 t
  show xArr m c (((cfg0.win 0).blk t).view.emb (ix3 (0 : Fin 1) a b)) = xArr m c (ix3 (mdl t) a b)
  refine congrArg _ (funext fun ax => Fin.ext ?_)
  match ax with
  | ⟨0, _⟩ => show win0_0.index t (0 : Fin 3) * 1 + 1 * 0 = t.val; omega
  | ⟨1, _⟩ => show win0_0.index t (1 : Fin 3) * 64 + 1 * a.val = a.val; omega
  | ⟨2, _⟩ => show win0_0.index t (2 : Fin 3) * 512 + 1 * b.val = b.val; omega
/-- The hidden-state block at point `t` is the hidden state of model `t`. -/
theorem h_blk (c : Dev nD) (t : Fin cfg0.N) (a : Fin 64) (b : Fin 512) :
    hBlk m c t (ix3 (0 : Fin 1) a b) = hArr m c (ix3 (mdl t) a b) := by
  obtain ⟨h0, h1, h2⟩ := idx_facts1 t
  show hArr m c (((cfg0.win 1).blk t).view.emb (ix3 (0 : Fin 1) a b)) = hArr m c (ix3 (mdl t) a b)
  refine congrArg _ (funext fun ax => Fin.ext ?_)
  match ax with
  | ⟨0, _⟩ => show win0_1.index t (0 : Fin 3) * 1 + 1 * 0 = t.val; omega
  | ⟨1, _⟩ => show win0_1.index t (1 : Fin 3) * 64 + 1 * a.val = a.val; omega
  | ⟨2, _⟩ => show win0_1.index t (2 : Fin 3) * 512 + 1 * b.val = b.val; omega
/-- The cell-state block at point `t` is the cell state of model `t`. -/
theorem c_blk (c : Dev nD) (t : Fin cfg0.N) (a : Fin 64) (b : Fin 512) :
    cBlk m c t (ix3 (0 : Fin 1) a b) = cArr m c (ix3 (mdl t) a b) := by
  obtain ⟨h0, h1, h2⟩ := idx_facts2 t
  show cArr m c (((cfg0.win 2).blk t).view.emb (ix3 (0 : Fin 1) a b)) = cArr m c (ix3 (mdl t) a b)
  refine congrArg _ (funext fun ax => Fin.ext ?_)
  match ax with
  | ⟨0, _⟩ => show win0_2.index t (0 : Fin 3) * 1 + 1 * 0 = t.val; omega
  | ⟨1, _⟩ => show win0_2.index t (1 : Fin 3) * 64 + 1 * a.val = a.val; omega
  | ⟨2, _⟩ => show win0_2.index t (2 : Fin 3) * 512 + 1 * b.val = b.val; omega
/-- The input-weight block at point `t` is the input weights of model `t`. -/
theorem k_blk (c : Dev nD) (t : Fin cfg0.N) (a : Fin 512) (b : Fin 2048) :
    kBlk m c t (ix3 (0 : Fin 1) a b) = kArr m c (ix3 (mdl t) a b) := by
  obtain ⟨h0, h1, h2⟩ := idx_facts3 t
  show kArr m c (((cfg0.win 3).blk t).view.emb (ix3 (0 : Fin 1) a b)) = kArr m c (ix3 (mdl t) a b)
  refine congrArg _ (funext fun ax => Fin.ext ?_)
  match ax with
  | ⟨0, _⟩ => show win0_3.index t (0 : Fin 3) * 1 + 1 * 0 = t.val; omega
  | ⟨1, _⟩ => show win0_3.index t (1 : Fin 3) * 512 + 1 * a.val = a.val; omega
  | ⟨2, _⟩ => show win0_3.index t (2 : Fin 3) * 2048 + 1 * b.val = b.val; omega
/-- The recurrent-weight block at point `t` is the recurrent weights of model `t`. -/
theorem r_blk (c : Dev nD) (t : Fin cfg0.N) (a : Fin 512) (b : Fin 2048) :
    rBlk m c t (ix3 (0 : Fin 1) a b) = rArr m c (ix3 (mdl t) a b) := by
  obtain ⟨h0, h1, h2⟩ := idx_facts4 t
  show rArr m c (((cfg0.win 4).blk t).view.emb (ix3 (0 : Fin 1) a b)) = rArr m c (ix3 (mdl t) a b)
  refine congrArg _ (funext fun ax => Fin.ext ?_)
  match ax with
  | ⟨0, _⟩ => show win0_4.index t (0 : Fin 3) * 1 + 1 * 0 = t.val; omega
  | ⟨1, _⟩ => show win0_4.index t (1 : Fin 3) * 512 + 1 * a.val = a.val; omega
  | ⟨2, _⟩ => show win0_4.index t (2 : Fin 3) * 2048 + 1 * b.val = b.val; omega
/-- The bias block at point `t` is the bias row of model `t`. -/
theorem b_blk (c : Dev nD) (t : Fin cfg0.N) (a : Fin 1) (b : Fin 2048) :
    bBlk m c t (ix3 (0 : Fin 1) a b) = bArr m c (ix3 (mdl t) a b) := by
  obtain ⟨h0, h1, h2⟩ := idx_facts5 t
  show bArr m c (((cfg0.win 5).blk t).view.emb (ix3 (0 : Fin 1) a b)) = bArr m c (ix3 (mdl t) a b)
  refine congrArg _ (funext fun ax => Fin.ext ?_)
  match ax with
  | ⟨0, _⟩ => show win0_5.index t (0 : Fin 3) * 1 + 1 * 0 = t.val; omega
  | ⟨1, _⟩ => show win0_5.index t (1 : Fin 3) * 1 + 1 * a.val = a.val; omega
  | ⟨2, _⟩ => show win0_5.index t (2 : Fin 3) * 2048 + 1 * b.val = b.val; omega

/-! ## The hid output -/

/-- Where an element of point `t`'s block sits in the hid array: model `t`, the same row and unit. -/
theorem hid_emb (t : Fin cfg0.N) (y : S1x64x512.Idx) :
    ((cfg0.win 6).blk t).view.emb y = ix3 (mdl t) (y 1) (y 2) := by
  obtain ⟨h0, h1, h2⟩ := idx_facts6 t
  have hy0 : (y 0).val < 1 := (y 0).isLt
  refine funext fun ax => Fin.ext ?_
  match ax with
  | ⟨0, _⟩ => show win0_6.index t (0 : Fin 3) * 1 + 1 * (y 0).val = t.val; omega
  | ⟨1, _⟩ => show win0_6.index t (1 : Fin 3) * 64 + 1 * (y 1).val = (y 1).val; omega
  | ⟨2, _⟩ => show win0_6.index t (2 : Fin 3) * 512 + 1 * (y 2).val = (y 2).val; omega

/-- What point `t` leaves in the hid staging buffer is the hid state of model `t`, row by row and unit by unit. -/
theorem hid_point (c : Dev nD) (t : Fin cfg0.N) (y : S1x64x512.Idx) :
    out0_6 (xBlk m c t) (hBlk m c t) (cBlk m c t) (kBlk m c t) (rBlk m c t) (bBlk m c t) y
      = hidNew (xArr m c) (hArr m c) (cArr m c) (kArr m c) (rArr m c) (bArr m c) (ix3 (mdl t) (y 1) (y 2)) := by
  have hy : y = ix3 (0 : Fin 1) (y 1) (y 2) :=
    (eq_ix3 y).trans (by rw [show y 0 = (0 : Fin 1) from Fin.ext (by have h : (y 0).val < 1 := (y 0).isLt; show (y 0).val = 0; omega)]; rfl)
  calc out0_6 (xBlk m c t) (hBlk m c t) (cBlk m c t) (kBlk m c t) (rBlk m c t) (bBlk m c t) y
      = out0_6 (xBlk m c t) (hBlk m c t) (cBlk m c t) (kBlk m c t) (rBlk m c t) (bBlk m c t) (ix3 (0 : Fin 1) (y 1) (y 2)) :=
        congrArg (out0_6 (xBlk m c t) (hBlk m c t) (cBlk m c t) (kBlk m c t) (rBlk m c t) (bBlk m c t)) hy
    _ = hidNew (M := 1) (xBlk m c t) (hBlk m c t) (cBlk m c t) (kBlk m c t) (rBlk m c t) (bBlk m c t) (ix3 (0 : Fin 1) (y 1) (y 2)) :=
        hid_out_apply (xBlk m c t) (hBlk m c t) (cBlk m c t) (kBlk m c t) (rBlk m c t) (bBlk m c t) (y 1) (y 2)
    _ = hidNew (xArr m c) (hArr m c) (cArr m c) (kArr m c) (rArr m c) (bArr m c) (ix3 (mdl t) (y 1) (y 2)) :=
        hidNew_slice (xArr m c) (hArr m c) (cArr m c) (kArr m c) (rArr m c) (bArr m c) (mdl t)
          (xBlk m c t) (hBlk m c t) (cBlk m c t) (kBlk m c t) (rBlk m c t) (bBlk m c t)
          (x_blk m c t) (h_blk m c t) (c_blk m c t) (k_blk m c t) (r_blk m c t) (fun u => b_blk m c t (0 : Fin 1) u) (y 1) (y 2)

/-- WHAT POINT `t` WRITES BACK is block `t` of the hid state of the arrays as the region finds them. -/
theorem hid_flushed (c : Dev nD) (t : Fin cfg0.N) :
    (dats m 0 c).flushed 6 t = ((cfg0.win 6).blk t).view.read (Elt Ideal)
      (hidNew (xArr m c) (hArr m c) (cArr m c) (kArr m c) (rArr m c) (bArr m c)) := by
  rw [Value.flushed6]
  funext y
  exact (hid_point m c t y).trans
    (congrArg (hidNew (xArr m c) (hArr m c) (cArr m c) (kArr m c) (rArr m c) (bArr m c)) (hid_emb t y).symm)

/-- An index of the array is in point `t`'s block iff each coordinate is in the block's range on its axis. -/
theorem hid_mem_blk (t : Fin cfg0.N) (i : S64x64x512.Idx) :
    i ∈ ((cfg0.win 6).blk t).view.set ↔ ∀ a : Fin 3, win0_6.index t a * S1x64x512.size a ≤ (i a).val ∧ (i a).val < win0_6.index t a * S1x64x512.size a + S1x64x512.size a := by
  show i ∈ ((View.whole main_v2_0).slice (win0_6.rect t)).set ↔ _
  rw [View.set_slice_whole, Rect.mem_set_unit]
  exact Iff.rfl

/-- Every index of the array is in the block of the point of its model. -/
theorem hid_cover (i : S64x64x512.Idx) :
    ∃ t : Fin cfg0.N, (cfg0.win 6).flush t = true ∧ i ∈ ((cfg0.win 6).blk t).view.set := by
  have hi0 : (i 0).val < 64 := (i 0).isLt
  have hi1 : (i 1).val < 64 := (i 1).isLt
  have hi2 : (i 2).val < 512 := (i 2).isLt
  obtain ⟨t, ht⟩ : ∃ t : Fin cfg0.N, t.val = (i 0).val := ⟨⟨(i 0).val, Nat.lt_of_lt_of_eq hi0 N_0.symm⟩, rfl⟩
  obtain ⟨h0, h1, h2⟩ := idx_facts6 t
  refine ⟨t, flush0_6 t, ?_⟩
  rw [hid_mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 64 ≤ (i 1).val ∧ (i 1).val < win0_6.index t (1 : Fin 3) * 64 + 64; omega
  | ⟨2, _⟩ => show win0_6.index t (2 : Fin 3) * 512 ≤ (i 2).val ∧ (i 2).val < win0_6.index t (2 : Fin 3) * 512 + 512; omega

/-- THE ARRAY after the run: the hid state of the six arguments. -/
theorem hid_final (c : Dev nD) :
    (dats m 0 c).arrAt 6 cfg0.N = hidNew (M := 64) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  rw [(dats m 0 c).arrAt_eq_of_cover 6 (hidNew (xArr m c) (hArr m c) (cArr m c) (kArr m c) (rArr m c) (bArr m c))
    (fun t _ => hid_flushed m c t) hid_cover]
  rw [xArr_eq, hArr_eq, cArr_eq, kArr_eq, rArr_eq, bArr_eq]

/-! ## The cell output -/

/-- Where an element of point `t`'s block sits in the cell array: model `t`, the same row and unit. -/
theorem cell_emb (t : Fin cfg0.N) (y : S1x64x512.Idx) :
    ((cfg0.win 7).blk t).view.emb y = ix3 (mdl t) (y 1) (y 2) := by
  obtain ⟨h0, h1, h2⟩ := idx_facts7 t
  have hy0 : (y 0).val < 1 := (y 0).isLt
  refine funext fun ax => Fin.ext ?_
  match ax with
  | ⟨0, _⟩ => show win0_7.index t (0 : Fin 3) * 1 + 1 * (y 0).val = t.val; omega
  | ⟨1, _⟩ => show win0_7.index t (1 : Fin 3) * 64 + 1 * (y 1).val = (y 1).val; omega
  | ⟨2, _⟩ => show win0_7.index t (2 : Fin 3) * 512 + 1 * (y 2).val = (y 2).val; omega

/-- What point `t` leaves in the cell staging buffer is the cell state of model `t`, row by row and unit by unit. -/
theorem cell_point (c : Dev nD) (t : Fin cfg0.N) (y : S1x64x512.Idx) :
    out0_7 (xBlk m c t) (hBlk m c t) (cBlk m c t) (kBlk m c t) (rBlk m c t) (bBlk m c t) y
      = cellNew (xArr m c) (hArr m c) (cArr m c) (kArr m c) (rArr m c) (bArr m c) (ix3 (mdl t) (y 1) (y 2)) := by
  have hy : y = ix3 (0 : Fin 1) (y 1) (y 2) :=
    (eq_ix3 y).trans (by rw [show y 0 = (0 : Fin 1) from Fin.ext (by have h : (y 0).val < 1 := (y 0).isLt; show (y 0).val = 0; omega)]; rfl)
  calc out0_7 (xBlk m c t) (hBlk m c t) (cBlk m c t) (kBlk m c t) (rBlk m c t) (bBlk m c t) y
      = out0_7 (xBlk m c t) (hBlk m c t) (cBlk m c t) (kBlk m c t) (rBlk m c t) (bBlk m c t) (ix3 (0 : Fin 1) (y 1) (y 2)) :=
        congrArg (out0_7 (xBlk m c t) (hBlk m c t) (cBlk m c t) (kBlk m c t) (rBlk m c t) (bBlk m c t)) hy
    _ = cellNew (M := 1) (xBlk m c t) (hBlk m c t) (cBlk m c t) (kBlk m c t) (rBlk m c t) (bBlk m c t) (ix3 (0 : Fin 1) (y 1) (y 2)) :=
        cell_out_apply (xBlk m c t) (hBlk m c t) (cBlk m c t) (kBlk m c t) (rBlk m c t) (bBlk m c t) (y 1) (y 2)
    _ = cellNew (xArr m c) (hArr m c) (cArr m c) (kArr m c) (rArr m c) (bArr m c) (ix3 (mdl t) (y 1) (y 2)) :=
        cellNew_slice (xArr m c) (hArr m c) (cArr m c) (kArr m c) (rArr m c) (bArr m c) (mdl t)
          (xBlk m c t) (hBlk m c t) (cBlk m c t) (kBlk m c t) (rBlk m c t) (bBlk m c t)
          (x_blk m c t) (h_blk m c t) (c_blk m c t) (k_blk m c t) (r_blk m c t) (fun u => b_blk m c t (0 : Fin 1) u) (y 1) (y 2)

/-- WHAT POINT `t` WRITES BACK is block `t` of the cell state of the arrays as the region finds them. -/
theorem cell_flushed (c : Dev nD) (t : Fin cfg0.N) :
    (dats m 0 c).flushed 7 t = ((cfg0.win 7).blk t).view.read (Elt Ideal)
      (cellNew (xArr m c) (hArr m c) (cArr m c) (kArr m c) (rArr m c) (bArr m c)) := by
  rw [Value.flushed7]
  funext y
  exact (cell_point m c t y).trans
    (congrArg (cellNew (xArr m c) (hArr m c) (cArr m c) (kArr m c) (rArr m c) (bArr m c)) (cell_emb t y).symm)

/-- An index of the array is in point `t`'s block iff each coordinate is in the block's range on its axis. -/
theorem cell_mem_blk (t : Fin cfg0.N) (i : S64x64x512.Idx) :
    i ∈ ((cfg0.win 7).blk t).view.set ↔ ∀ a : Fin 3, win0_7.index t a * S1x64x512.size a ≤ (i a).val ∧ (i a).val < win0_7.index t a * S1x64x512.size a + S1x64x512.size a := by
  show i ∈ ((View.whole main_v2_1).slice (win0_7.rect t)).set ↔ _
  rw [View.set_slice_whole, Rect.mem_set_unit]
  exact Iff.rfl

/-- Every index of the array is in the block of the point of its model. -/
theorem cell_cover (i : S64x64x512.Idx) :
    ∃ t : Fin cfg0.N, (cfg0.win 7).flush t = true ∧ i ∈ ((cfg0.win 7).blk t).view.set := by
  have hi0 : (i 0).val < 64 := (i 0).isLt
  have hi1 : (i 1).val < 64 := (i 1).isLt
  have hi2 : (i 2).val < 512 := (i 2).isLt
  obtain ⟨t, ht⟩ : ∃ t : Fin cfg0.N, t.val = (i 0).val := ⟨⟨(i 0).val, Nat.lt_of_lt_of_eq hi0 N_0.symm⟩, rfl⟩
  obtain ⟨h0, h1, h2⟩ := idx_facts7 t
  refine ⟨t, flush0_7 t, ?_⟩
  rw [cell_mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 64 ≤ (i 1).val ∧ (i 1).val < win0_7.index t (1 : Fin 3) * 64 + 64; omega
  | ⟨2, _⟩ => show win0_7.index t (2 : Fin 3) * 512 ≤ (i 2).val ∧ (i 2).val < win0_7.index t (2 : Fin 3) * 512 + 512; omega

/-- THE ARRAY after the run: the cell state of the six arguments. -/
theorem cell_final (c : Dev nD) :
    (dats m 0 c).arrAt 7 cfg0.N = cellNew (M := 64) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  rw [(dats m 0 c).arrAt_eq_of_cover 7 (cellNew (xArr m c) (hArr m c) (cArr m c) (kArr m c) (rArr m c) (bArr m c))
    (fun t _ => cell_flushed m c t) cell_cover]
  rw [xArr_eq, hArr_eq, cArr_eq, kArr_eq, rArr_eq, bArr_eq]

/-! ## The run, read -/

/-- Every weakly fair execution of the kernel's program terminates with the first output array at the new hidden
    state and the second at the new cell state of the six arguments, the arguments unchanged. -/
theorem run : θ_run defs (onTc (τ := τ) (main (F := Ideal))) ⟨m, fun _ => 0, ρ⟩ fun r => ∀ c : Dev nD,
      r.2.mem ((c : Thread nD τ).loc main_v2_0) = hidNew (M := 64) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c : Thread nD τ).loc main_v2_1) = cellNew (M := 64) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (hid_final m c), (h c).2.1.trans (cell_final m c), (h c).2.2⟩)
    (Value.run_blocks m ρ)

end Cert.KernelIdeal.CellValue

end
-- ==== Proof.lean ====
/-
  A batch of 64 independent long short-term memory cells, one step: a kernel that runs one model per grid
  point against the reference that contracts all models at once.

  Both programs compute, for model m, batch row b and gate column u,
    z[m, b, u] = Σ_k x[m, b, k] · K[m, k, u] + Σ_k h[m, b, k] · R[m, k, u] + bias[m, 0, u],
  then split the 2048 gate columns into four groups of 512 (input gate, forget gate, candidate, output gate) and return
    c' = σ(z_f) · c + σ(z_i) · tanh(z_g)   and   h' = σ(z_o) · tanh(c'),
  the hidden state twice and the cell state once.

  The kernel narrows x, h, K and R to a sixteen-bit float format before its two matrix products; on extended
  reals a change of format is the identity, a matrix product into a zero accumulator is the plain sum of
  products, and that sum is the one the reference's batched contraction denotes, with the model as the batch
  axis. The kernel's logistic function is one operation, the reference spells it 1 / (1 + exp (-z)) with the
  f32 pattern of one: the two are one function on the extended reals, infinities included. The remaining
  operations are the same on both sides and in the same order, so no law of arithmetic that could fail at
  an infinity is used, and the precondition (every input finite) is not needed for the equality.

  The grid has one point per model and every window's block at point t is slice t of its array, so the 64
  blocks each point writes back tile the two output arrays (KernelBlocks); what a point writes is the cell of
  one model (KernelCell, over the pre-activation read at an index in KernelPreact); the reference's
  stages are the same cell (RefCell); the cell itself is stated once in CellSpec.
-/
import proofs.«151474_j75385265979695_1_alg».proof.Defs
import proofs.«151474_j75385265979695_1_alg».proof.Proof.Gen.Kernel
import proofs.«151474_j75385265979695_1_alg».proof.Proof.Gen.Kernel.Skeleton
import proofs.«151474_j75385265979695_1_alg».proof.Proof.Gen.Kernel.Launch
import proofs.«151474_j75385265979695_1_alg».proof.Proof.Gen.Kernel.Points
import proofs.«151474_j75385265979695_1_alg».proof.Proof.Gen.Kernel.Frame
import proofs.«151474_j75385265979695_1_alg».proof.Proof.Gen.KernelIdeal
import proofs.«151474_j75385265979695_1_alg».proof.Proof.Gen.KernelIdeal.Skeleton
import proofs.«151474_j75385265979695_1_alg».proof.Proof.Gen.KernelIdeal.Launch
import proofs.«151474_j75385265979695_1_alg».proof.Proof.Gen.KernelIdeal.Points
import proofs.«151474_j75385265979695_1_alg».proof.Proof.Gen.KernelIdeal.Frame
import proofs.«151474_j75385265979695_1_alg».proof.Proof.Gen.ReferenceIdeal
import proofs.«151474_j75385265979695_1_alg».proof.Proof.Gen.Pre_finite_inputs
import proofs.«151474_j75385265979695_1_alg».proof.Proof.Gen.KernelIdeal.Value
import proofs.«151474_j75385265979695_1_alg».proof.Proof.Gen.ReferenceIdeal.Run
import proofs.«151474_j75385265979695_1_alg».proof.Proof.Gen.ReferenceIdeal.Read
import proofs.«151474_j75385265979695_1_alg».proof.Proof.CellSpec
import proofs.«151474_j75385265979695_1_alg».proof.Proof.RefCell
import proofs.«151474_j75385265979695_1_alg».proof.Proof.KernelPreact
import proofs.«151474_j75385265979695_1_alg».proof.Proof.KernelCell
import proofs.«151474_j75385265979695_1_alg».proof.Proof.KernelBlocks
import Idealize.ShloMosaic.Adequacy
import Idealize.ShloMosaic.Init

noncomputable section

namespace Cert.Proof

open Idealize.ShloMosaic Idealize.SL.Sem Cert.LstmCell

/-- The kernel as printed runs, faults nowhere and leaves its six arguments as they were. -/
theorem frame_kernel : Cert.frame_Kernel := fun m ρ _ => Cert.Kernel.Gen.frame m ρ

/-- So does its reading on extended reals. -/
theorem frame_kernel_ideal : Cert.frame_KernelIdeal := fun m ρ _ => Cert.KernelIdeal.Gen.frame m ρ

/-- The reference is a straight line of host operations: it runs, and its run leaves the arguments unchanged. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The idealization rewrote no operation of the kernel. -/
theorem preserves : Cert.preserves_Kernel_KernelIdeal := trivial

/-- From memories that agree on the six arguments, both programs end with the new hidden state in their first
    two results and the new cell state in the third, as ONE function of the arguments. -/
theorem algebraic : Cert.algebraic_KernelIdeal_ReferenceIdeal := by
  intro m ρ m' ρ' _ hagree
  refine ⟨_, _, _, (θ_run Cert.KernelIdeal.defs _ _).mono (fun r h c => ⟨(h c).1, (h c).1, (h c).2.1, (h c).2.2⟩)
    (Cert.KernelIdeal.CellValue.run m ρ), ?_⟩
  refine (θ_run Cert.ReferenceIdeal.defs _ _).mono (fun r h c => ?_) (Cert.ReferenceIdeal.Value.run (F := Ideal) m' ρ')
  obtain ⟨a0, a1, a2, a3, a4, a5⟩ := hagree c
  have eh := (h c).1
  have ec := (h c).2.2.1
  rw [Cert.ReferenceIdeal.Read.val_main_v32_eq, Cert.ReferenceIdeal.CellValue.hid_eq, a0, a1, a2, a3, a4, a5] at eh
  rw [Cert.ReferenceIdeal.Read.val_main_v24_eq, Cert.ReferenceIdeal.CellValue.cell_eq, a0, a1, a2, a3, a4, a5] at ec
  exact ⟨eh, eh, ec, (h c).2.2.2⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
